-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S512x128 .f32) (main_arg7 : FVec F S128 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x128 .f32 := Host.absf main_arg6
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S800000x128 .f32) (main_arg2 : IVec S800000 32) (main_arg3 : IVec S800000 32) (main_arg4 : FVec F S256x512 .f32) (main_arg5 : FVec F S512 .f32) (main_arg6 : FVec F S512x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512 .f32 := Host.absf main_arg5
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg6 main_arg7 main_v13 main_v16
-- ==== Kernel.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S128x512 : Shape := ⟨2, ![128, 512]⟩
abbrev S2000x128 : Shape := ⟨2, ![2000, 128]⟩
abbrev S2000x512 : Shape := ⟨2, ![2000, 512]⟩
abbrev S1x512 : Shape := ⟨2, ![1, 512]⟩
abbrev S1x128 : Shape := ⟨2, ![1, 128]⟩

abbrev nBuf : Space → Nat
  | .hbm => 15
  | .vmem => 11
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S50000x128, .f32⟩
  | .hbm, ⟨10, _⟩ => ⟨S800000x1, .i32⟩
  | .hbm, ⟨11, _⟩ => ⟨S50000x128, .f32⟩
  | .hbm, ⟨12, _⟩ => ⟨S128x512, .f32⟩
  | .hbm, ⟨13, _⟩ => ⟨S128x512, .f32⟩
  | .hbm, ⟨14, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x512, .f32⟩
  | .local _ .vmem, ⟨5, _⟩ => ⟨S128x512, .f32⟩
  | .local _ .vmem, ⟨6, _⟩ => ⟨S512, .f32⟩
  | .local _ .vmem, ⟨7, _⟩ => ⟨S512x128, .f32⟩
  | .local _ .vmem, ⟨8, _⟩ => ⟨S128, .f32⟩
  | .local _ .vmem, ⟨9, _⟩ => ⟨S2000x128, .f32⟩
  | .local _ .vmem, ⟨10, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  slices_S256x512_S128x512_0_0 : S256x512.Slices ![0, 0] S128x512
  slices_S256x512_S128x512_128_0 : S256x512.Slices ![128, 0] S128x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  shapeCasts_S512_S1x512 : S512.ShapeCasts S1x512
  broadcasts_S1x512_S2000x512 : S1x512.Broadcasts S2000x512
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000x128_S800000x1_S800000x128_1_0_0_1_wf : ScatterDims.WF S50000x128 S800000x1 S800000x128 [1] [0] [0] 1
  dot_S2000x128_S128x512_S2000x512_1_0_0_1_n_n_wf : DotDims.WF S2000x128 S128x512 S2000x512 [1] [0] [0] [1] [] []
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_v2) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x128 : Shape := ⟨2, ![800000, 128]⟩
abbrev S800000 : Shape := ⟨1, ![800000]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S800000x1 : Shape := ⟨2, ![800000, 1]⟩
abbrev S50000x256 : Shape := ⟨2, ![50000, 256]⟩
abbrev S50000x512 : Shape := ⟨2, ![50000, 512]⟩
abbrev S1x512 : Shape := ⟨2, ![1, 512]⟩
abbrev S1x128 : Shape := ⟨2, ![1, 128]⟩

abbrev nBuf : Space → Nat
  | .hbm => 24
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x128, .f32⟩
  | .hbm, ⟨2, _⟩ => ⟨S800000, .i32⟩
  | .hbm, ⟨3, _⟩ => ⟨S800000, .i32⟩
  | .hbm, ⟨4, _⟩ => ⟨S256x512, .f32⟩
  | .hbm, ⟨5, _⟩ => ⟨S512, .f32⟩
  | .hbm, ⟨6, _⟩ => ⟨S512x128, .f32⟩
  | .hbm, ⟨7, _⟩ => ⟨S128, .f32⟩
  | .hbm, ⟨8, _⟩ => ⟨S_, .f32⟩
  | .hbm, ⟨9, _⟩ => ⟨S50000x128, .f32⟩
  | .hbm, ⟨10, _⟩ => ⟨S800000x1, .i32⟩
  | .hbm, ⟨11, _⟩ => ⟨S50000x128, .f32⟩
  | .hbm, ⟨12, _⟩ => ⟨S50000x256, .f32⟩
  | .hbm, ⟨13, _⟩ => ⟨S50000x512, .f32⟩
  | .hbm, ⟨14, _⟩ => ⟨S1x512, .f32⟩
  | .hbm, ⟨15, _⟩ => ⟨S50000x512, .f32⟩
  | .hbm, ⟨16, _⟩ => ⟨S50000x512, .f32⟩
  | .hbm, ⟨17, _⟩ => ⟨S_, .f32⟩
  | .hbm, ⟨18, _⟩ => ⟨S50000x512, .f32⟩
  | .hbm, ⟨19, _⟩ => ⟨S50000x512, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S800000_S800000x1_0 : S800000.BroadcastsInDim S800000x1 (![0] : Fin 1 → Fin S800000x1.rank)
  concatenates_S50000x128_S50000x128_S50000x256_d1 : Shape.Concatenates [S50000x128, S50000x128] S50000x256 1
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000x128_S800000x1_S800000x128_1_0_0_1_wf : ScatterDims.WF S50000x128 S800000x1 S800000x128 [1] [0] [0] 1
  dot_S50000x256_S256x512_S50000x512_1_0_0_1_n_n_wf : DotDims.WF S50000x256 S256x512 S50000x512 [1] [0] [0] [1] [] []
  dot_S50000x512_S512x128_S50000x128_1_0_0_1_n_n_wf : DotDims.WF S50000x512 S512x128 S50000x128 [1] [0] [0] [1] [] []

variable [Facts₀]

def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.NodeMlpSpec.lean ====
/-
  The node update of a message-passing layer, as one function of its arrays.

  Each node r has an aggregated edge feature row agg(r, ·) and a node feature row nodes(r, ·), both of length 128.
  The update is a two-layer perceptron on the joined row [agg(r, ·) | nodes(r, ·)] of length 256:

      hid(r, h) = sum_{k < 256} [agg | nodes](r, k) * W1(k, h) + b1(h)
                = sum_{k < 128} agg(r, k) * W1(k, h) + sum_{k < 128} nodes(r, k) * W1(128 + k, h) + b1(h)
      out(r, j) = sum_{h < 512} max(hid(r, h), 0) * W2(h, j) + b2(j)

  The second line of hid splits the sum over the joined row into its two halves: the first 128 rows of W1 meet the
  aggregated features and the last 128 rows meet the node features. Addition of extended reals is commutative and
  associative, so the split holds for every value, finite or not; no finiteness is used anywhere.
-/
import Idealize.ShloMosaic.PureOps.Ideal
import Idealize.ShloMosaic.Lib.ValueIdx
import Mathlib.Algebra.BigOperators.Fin

noncomputable section

open scoped BigOperators

namespace Cert.NodeMlp

open Idealize.ShloMosaic Idealize.ShloMosaic.ValueIdx

/-- A matrix of extended reals. -/
abbrev Mat (a b : Nat) : Type := (⟨2, ![a, b]⟩ : Shape).Idx → EReal
/-- A row of extended reals. -/
abbrev Row (a : Nat) : Type := (⟨1, ![a]⟩ : Shape).Idx → EReal

/-- Row k of the upper half of a 256-row matrix. -/
abbrev lo (k : Fin 128) : Fin 256 := ⟨k.val, by omega⟩
/-- Row k of the lower half of a 256-row matrix: row 128 + k. -/
abbrev hi (k : Fin 128) : Fin 256 := ⟨128 + k.val, by omega⟩

/-- A sum over 256 terms is the sum over the first 128 plus the sum over the last 128. -/
theorem sum_halves {M : Type*} [AddCommMonoid M] (f : Fin 256 → M) :
    ∑ k : Fin 256, f k = ∑ k : Fin 128, f (lo k) + ∑ k : Fin 128, f (hi k) :=
  Fin.sum_univ_add (a := 128) (b := 128) f

/-- The hidden layer before its rectifier, with the first weight matrix split into the rows that meet the aggregated
    edge features and the rows that meet the node features. -/
def hid (agg nodes : Mat 50000 128) (W1 : Mat 256 512) (b1 : Row 512) (r : Fin 50000) (h : Fin 512) : EReal :=
  (∑ k : Fin 128, agg (ix2 r k) * W1 (ix2 (lo k) h)) + (∑ k : Fin 128, nodes (ix2 r k) * W1 (ix2 (hi k) h)) + b1 (ix1 h)

/-- The updated node features. -/
def out (agg nodes : Mat 50000 128) (W1 : Mat 256 512) (b1 : Row 512) (W2 : Mat 512 128) (b2 : Row 128) : Mat 50000 128 :=
  fun i => (∑ h : Fin 512, max (hid agg nodes W1 b1 (i 0) h) 0 * W2 (ix2 h (i 1))) + b2 (ix1 (i 1))

/-- The same hidden layer computed from ANY joined row x of length 256 whose first half is the aggregated features and
    whose second half is the node features: one sum over all 256 rows of W1. -/
theorem hid_of_joined (agg nodes : Mat 50000 128) (W1 : Mat 256 512) (b1 : Row 512) (x : Mat 50000 256)
    (r : Fin 50000) (h : Fin 512)
    (hlo : ∀ k : Fin 128, x (ix2 r (lo k)) = agg (ix2 r k)) (hhi : ∀ k : Fin 128, x (ix2 r (hi k)) = nodes (ix2 r k)) :
    (∑ k : Fin 256, x (ix2 r k) * W1 (ix2 k h)) + b1 (ix1 h) = hid agg nodes W1 b1 r h := by
  unfold hid
  rw [sum_halves]
  simp only [hlo, hhi]

end Cert.NodeMlp

end
-- ==== Proof.KernelBlock.lean ====
/-
  One block of the kernel's result, entry by entry.

  At a grid point the body holds a block of 2000 rows of the aggregated edge features (x0) and of the node features (x1),
  the two halves of the first weight matrix (wa: the rows that meet the aggregated features; wb: the rows that meet the
  node features), the second weight matrix w2 and the two bias rows. Reading a change of float format as the identity
  and each matrix product into the zero matrix as a plain sum, entry (p, q) of the block it stores is

      sum_{h < 512} max( sum_{k < 128} x0(p, k) wa(k, h) + sum_{k < 128} x1(p, k) wb(k, h) + b1(h), 0 ) * w2(h, q) + b2(q).
-/
import proofs.«117896_j3375844295136_1_alg».proof.Proof.Gen.KernelIdeal.Skeleton
import proofs.«117896_j3375844295136_1_alg».proof.Proof.LibRealFactor
import proofs.«117896_j3375844295136_1_alg».proof.Proof.NodeMlpSpec
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first layer's product of a block of rows with one half of the first weight matrix, at an entry. -/
theorem layer1_apply {φ₁ φ₂ : FTy} (l : FVec Ideal S2000x128 φ₁) (w : FVec Ideal S128x512 φ₂) (p : Fin 2000) (h : Fin 512) :
    matmul dot_S2000x128_S128x512_S2000x512_1_0_0_1_n_n none l w (constant S2000x512 .f32 0x00000000#32) (ix2 p h)
      = ∑ k : Fin 128, l (ix2 p k) * w (ix2 k h) :=
  Cert.Fold.matmul_zero_rows _ rfl rfl rfl rfl rfl rfl none l w p h

/-- The second layer's product of the rectified hidden block with the second weight matrix, at an entry. -/
theorem layer2_apply {φ₁ φ₂ : FTy} (l : FVec Ideal S2000x512 φ₁) (w : FVec Ideal S512x128 φ₂) (p : Fin 2000) (q : Fin 128) :
    matmul dot_S2000x512_S512x128_S2000x128_1_0_0_1_n_n none l w (constant S2000x128 .f32 0x00000000#32) (ix2 p q)
      = ∑ h : Fin 512, l (ix2 p h) * w (ix2 h q) :=
  Cert.Fold.matmul_zero_rows _ rfl rfl rfl rfl rfl rfl none l w p q

/-- A bias row laid over every row of a block reads the bias at the column. -/
theorem bias_apply {α : Type} {a b : Nat} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) := by
  rw [broadcastTo_1b_ab_apply, shapeCast_a_1a_apply]

/-- The zero the rectifier compares with. -/
theorem zero_word : (Scalar.ofBits (F := Ideal) .f32 0x00000000#32 : EReal) = 0 := Ideal.ofBits_zero_f32

/-- THE STORED BLOCK AT AN ENTRY. -/
theorem pay_apply (x0 x1 : Vec Ideal S2000x128 .f32) (wa wb : Vec Ideal S128x512 .f32) (w2 : Vec Ideal S512x128 .f32)
    (b1 : Vec Ideal S512 .f32) (b2 : Vec Ideal S128 .f32) (p : Fin 2000) (q : Fin 128) :
    k0_pay1 (F := Ideal) x0 x1 wa wb w2 b1 b2 (ix2 p q)
      = (∑ h : Fin 512, max ((∑ k : Fin 128, x0 (ix2 p k) * wa (ix2 k h)) + (∑ k : Fin 128, x1 (ix2 p k) * wb (ix2 k h)) + b1 (ix1 h)) 0
          * w2 (ix2 h q)) + b2 (ix1 q) := by
  unfold k0_pay1
  simp only [shapeCast_self]
  rw [addf_apply, layer2_apply, bias_apply]
  refine congrArg (· + b2 (ix1 q)) (Finset.sum_congr rfl fun h _ => ?_)
  rw [truncf_apply, truncf_apply, maximumf_apply, addf_apply, addf_apply, layer1_apply, layer1_apply, bias_apply,
    broadcast_apply, zero_word]
  rfl

/-- The stored block is a block of the node update, given where its operands sit in the whole arrays: row p of the block
    is row R of the arrays, the two weight blocks are the two halves of the first weight matrix, and the other operands
    are whole arrays. -/
theorem block_eq (x0 x1 : Vec Ideal S2000x128 .f32) (wa wb : Vec Ideal S128x512 .f32) (w2 : Vec Ideal S512x128 .f32)
    (b1 : Vec Ideal S512 .f32) (b2 : Vec Ideal S128 .f32)
    (agg nodes : Cert.NodeMlp.Mat 50000 128) (W1 : Cert.NodeMlp.Mat 256 512) (B1 : Cert.NodeMlp.Row 512)
    (W2 : Cert.NodeMlp.Mat 512 128) (B2 : Cert.NodeMlp.Row 128) (R : Fin 50000) (p : Fin 2000) (q : Fin 128)
    (h0 : ∀ k, x0 (ix2 p k) = agg (ix2 R k)) (h1 : ∀ k, x1 (ix2 p k) = nodes (ix2 R k))
    (ha : ∀ k h, wa (ix2 k h) = W1 (ix2 (Cert.NodeMlp.lo k) h)) (hb : ∀ k h, wb (ix2 k h) = W1 (ix2 (Cert.NodeMlp.hi k) h))
    (hb1 : ∀ h, b1 (ix1 h) = B1 (ix1 h)) (hw2 : ∀ h j, w2 (ix2 h j) = W2 (ix2 h j)) (hb2 : ∀ j, b2 (ix1 j) = B2 (ix1 j)) :
    k0_pay1 (F := Ideal) x0 x1 wa wb w2 b1 b2 (ix2 p q) = Cert.NodeMlp.out agg nodes W1 B1 W2 B2 (ix2 R q) := by
  rw [pay_apply]
  unfold Cert.NodeMlp.out Cert.NodeMlp.hid
  simp only [h0, h1, ha, hb, hb1, hw2, hb2]

end Cert.KernelIdeal.Body

end
-- ==== Proof.KernelNodeUpdate.lean ====
/-
  The kernel's result array is the node update.

  Before the kernel runs, the host scatter-adds the edge rows into their receiver rows (the aggregated edge features)
  and cuts the first weight matrix into its first 128 rows and its last 128 rows. The kernel then walks 25 grid points;
  point t reads rows 2000 t .. 2000 t + 1999 of the aggregated features and of the node features, the two halves of the
  first weight matrix, the second weight matrix and the two bias rows, all whole, and writes rows 2000 t .. 2000 t + 1999 of
  the result. Each written block is that block of the node update (one block at an entry), the 25 blocks tile the 50000
  rows, so the array ends holding the node update.
-/
import proofs.«117896_j3375844295136_1_alg».proof.Proof.Gen.KernelIdeal.Value
import proofs.«117896_j3375844295136_1_alg».proof.Proof.KernelBlock
import Idealize.ShloMosaic.Lib.StableHlo.Run
import Idealize.ShloMosaic.Lib.ValueLayout

set_option maxRecDepth 16384

noncomputable section

open scoped BigOperators

namespace Cert.KernelIdeal.NodeUpdate

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## What the host leaves for the kernel -/

/-- The aggregated edge features: every edge's row added into its receiver's row of a zero matrix. -/
def agg (recv : (⟨S800000, .i32⟩ : BufTy).Contents (Elt Ideal)) (edge : (⟨S800000x128, .f32⟩ : BufTy).Contents (Elt Ideal)) :
    (⟨S50000x128, .f32⟩ : BufTy).Contents (Elt Ideal) :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 recv) edge

/-- The kernel's first operand is the aggregated edge features. -/
theorem V_agg (c : Dev nD) :
    (V m c main_v2 : S50000x128.Idx → EReal) = agg (m ((c : Thread nD τ).loc main_arg3)) (m ((c : Thread nD τ).loc main_arg1)) := by
  dsimp only [Gen.V, Gen.hostOps0]; after_results; rfl

/-- The kernel's third operand is the first 128 rows of the first weight matrix. -/
theorem V_upper (c : Dev nD) :
    (V m c main_v3 : S128x512.Idx → EReal)
      = extractStridedSlice S128x512 ![0, 0] (m ((c : Thread nD τ).loc main_arg4)) slices_S256x512_S128x512_0_0 := by
  dsimp only [Gen.V, Gen.hostOps0]; after_results

/-- The kernel's fourth operand is the last 128 rows of the first weight matrix. -/
theorem V_lower (c : Dev nD) :
    (V m c main_v4 : S128x512.Idx → EReal)
      = extractStridedSlice S128x512 ![128, 0] (m ((c : Thread nD τ).loc main_arg4)) slices_S256x512_S128x512_128_0 := by
  dsimp only [Gen.V, Gen.hostOps0]; after_results

/-! ## Where each point's blocks sit -/

theorem off2 : (![0, 0] : Fin 2 → Nat) = fun _ => 0 := funext fun a => by fin_cases a <;> rfl
theorem off1 : (![0] : Fin 1 → Nat) = fun _ => 0 := funext fun a => by fin_cases a <;> rfl

/-- Point t reads row block t of the two feature matrices and writes row block t of the result; every other operand is
    read whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-! ## Reading a block of an array -/

/-- Cutting a block at the array's end changes nothing here: every block lies inside its array. -/
theorem cut_apply {α : Type} (t : Fin cfg0.N) (X : S2000x128.Idx → α) (y : S2000x128.Idx) :
    (cfg0.win 7).cut (grid0.coords t) X y = X y :=
  congrArg X (funext fun a => Fin.ext rfl)

/-- A block of an array read at an index of the block is the array at the index's place in the array. -/
theorem read7 (t : Fin cfg0.N) (A : S50000x128.Idx → EReal) (y : S2000x128.Idx) :
    ((cfg0.win 7).blk t).view.read (Elt Ideal) A y = A (((cfg0.win 7).blk t).view.emb y) := rfl
theorem read0 (t : Fin cfg0.N) (A : S50000x128.Idx → EReal) (y : S2000x128.Idx) :
    ((cfg0.win 0).blk t).view.read (Elt Ideal) A y = A (((cfg0.win 0).blk t).view.emb y) := rfl
theorem read1 (t : Fin cfg0.N) (A : S50000x128.Idx → EReal) (y : S2000x128.Idx) :
    ((cfg0.win 1).blk t).view.read (Elt Ideal) A y = A (((cfg0.win 1).blk t).view.emb y) := rfl
theorem read2 (t : Fin cfg0.N) (A : S128x512.Idx → EReal) (y : S128x512.Idx) :
    ((cfg0.win 2).blk t).view.read (Elt Ideal) A y = A (((cfg0.win 2).blk t).view.emb y) := rfl
theorem read3 (t : Fin cfg0.N) (A : S128x512.Idx → EReal) (y : S128x512.Idx) :
    ((cfg0.win 3).blk t).view.read (Elt Ideal) A y = A (((cfg0.win 3).blk t).view.emb y) := rfl
theorem read4 (t : Fin cfg0.N) (A : S512.Idx → EReal) (y : S512.Idx) :
    ((cfg0.win 4).blk t).view.read (Elt Ideal) A y = A (((cfg0.win 4).blk t).view.emb y) := rfl
theorem read5 (t : Fin cfg0.N) (A : S512x128.Idx → EReal) (y : S512x128.Idx) :
    ((cfg0.win 5).blk t).view.read (Elt Ideal) A y = A (((cfg0.win 5).blk t).view.emb y) := rfl
theorem read6 (t : Fin cfg0.N) (A : S128.Idx → EReal) (y : S128.Idx) :
    ((cfg0.win 6).blk t).view.read (Elt Ideal) A y = A (((cfg0.win 6).blk t).view.emb y) := rfl

/-- Each operand's block at a point, read at an index of the block. -/
theorem iblk0_apply (c : Dev nD) (t : Fin cfg0.N) (y : S2000x128.Idx) :
    iblk m c 0 t y = V m c main_v2 (((cfg0.win 0).blk t).view.emb y) := by unfold iblk; exact read0 t _ y
theorem iblk1_apply (c : Dev nD) (t : Fin cfg0.N) (y : S2000x128.Idx) :
    iblk m c 1 t y = V m c main_arg0 (((cfg0.win 1).blk t).view.emb y) := by unfold iblk; exact read1 t _ y
theorem iblk2_apply (c : Dev nD) (t : Fin cfg0.N) (y : S128x512.Idx) :
    iblk m c 2 t y = V m c main_v3 (((cfg0.win 2).blk t).view.emb y) := by unfold iblk; exact read2 t _ y
theorem iblk3_apply (c : Dev nD) (t : Fin cfg0.N) (y : S128x512.Idx) :
    iblk m c 3 t y = V m c main_v4 (((cfg0.win 3).blk t).view.emb y) := by unfold iblk; exact read3 t _ y
theorem iblk4_apply (c : Dev nD) (t : Fin cfg0.N) (y : S512.Idx) :
    iblk m c 4 t y = V m c main_arg5 (((cfg0.win 4).blk t).view.emb y) := by unfold iblk; exact read4 t _ y
theorem iblk5_apply (c : Dev nD) (t : Fin cfg0.N) (y : S512x128.Idx) :
    iblk m c 5 t y = V m c main_arg6 (((cfg0.win 5).blk t).view.emb y) := by unfold iblk; exact read5 t _ y
theorem iblk6_apply (c : Dev nD) (t : Fin cfg0.N) (y : S128.Idx) :
    iblk m c 6 t y = V m c main_arg7 (((cfg0.win 6).blk t).view.emb y) := by unfold iblk; exact read6 t _ y

/-! ## What a point writes back -/

/-- WHAT POINT t WRITES BACK is block t of the node update of the arrays as the kernel finds them. -/
theorem flushed_eq (c : Dev nD) (t : Fin cfg0.N) :
    (dats m 0 c).flushed 7 t = ((cfg0.win 7).blk t).view.read (Elt Ideal)
      (Cert.NodeMlp.out (V m c main_v2) (V m c main_arg0) (m ((c : Thread nD τ).loc main_arg4))
        (V m c main_arg5) (V m c main_arg6) (V m c main_arg7)) := by
  rw [Value.flushed7]
  unfold out0_7
  rw [View.canon_unit_zero off2]
  simp only [View.ld_unit_zero (S := S2000x128) off2, View.ld_unit_zero (S := S128x512) off2,
    View.ld_unit_zero (S := S512x128) off2, View.ld_unit_zero (S := S512) off1, View.ld_unit_zero (S := S128) off1]
  obtain ⟨e00, e01, e10, e11, e20, e21, e30, e31, e40, e50, e51, e60, e70, e71⟩ := idx_facts t
  have htN : t.val < 25 := by
    have h := t.isLt
    have e : cfg0.N = 25 := N_0
    omega
  refine funext fun (y : S2000x128.Idx) => ?_
  obtain ⟨p, q, rfl⟩ : ∃ (p : Fin 2000) (q : Fin 128), y = ix2 p q := ⟨y 0, y 1, eq_ix2 y⟩
  have hR : t.val * 2000 + p.val < 50000 := by have := p.isLt; omega
  refine (cut_apply t _ (ix2 p q)).trans ?_
  refine Eq.trans ?_ (read7 t _ (ix2 p q)).symm
  have hemb : ((cfg0.win 7).blk t).view.emb (ix2 p q) = ix2 (⟨t.val * 2000 + p.val, hR⟩ : Fin 50000) q := by
    funext a; apply Fin.ext
    match a with
    | ⟨0, _⟩ => show win0_7.index t (0 : Fin 2) * 2000 + 1 * p.val = t.val * 2000 + p.val; omega
    | ⟨1, _⟩ => show win0_7.index t (1 : Fin 2) * 128 + 1 * q.val = q.val; omega
  rw [hemb]
  refine Body.block_eq (iblk m c 0 t) (iblk m c 1 t) (iblk m c 2 t) (iblk m c 3 t) (iblk m c 5 t) (iblk m c 4 t) (iblk m c 6 t)
    (V m c main_v2) (V m c main_arg0) (m ((c : Thread nD τ).loc main_arg4)) (V m c main_arg5) (V m c main_arg6) (V m c main_arg7)
    ⟨t.val * 2000 + p.val, hR⟩ p q ?_ ?_ ?_ ?_ ?_ ?_ ?_
  · intro k
    rw [iblk0_apply]
    refine congrArg _ (funext fun a => Fin.ext ?_)
    match a with
    | ⟨0, _⟩ => show win0_0.index t (0 : Fin 2) * 2000 + 1 * p.val = t.val * 2000 + p.val; omega
    | ⟨1, _⟩ => show win0_0.index t (1 : Fin 2) * 128 + 1 * k.val = k.val; omega
  · intro k
    rw [iblk1_apply]
    refine congrArg _ (funext fun a => Fin.ext ?_)
    match a with
    | ⟨0, _⟩ => show win0_1.index t (0 : Fin 2) * 2000 + 1 * p.val = t.val * 2000 + p.val; omega
    | ⟨1, _⟩ => show win0_1.index t (1 : Fin 2) * 128 + 1 * k.val = k.val; omega
  · intro k h
    have he : ((cfg0.win 2).blk t).view.emb (ix2 k h) = ix2 k h := by
      funext a; apply Fin.ext
      match a with
      | ⟨0, _⟩ => show win0_2.index t (0 : Fin 2) * 128 + 1 * k.val = k.val; omega
      | ⟨1, _⟩ => show win0_2.index t (1 : Fin 2) * 512 + 1 * h.val = h.val; omega
    rw [iblk2_apply, he, V_upper]
    exact slice2_axis0_apply 0 _ slices_S256x512_S128x512_0_0 k h (Cert.NodeMlp.lo k) (Nat.zero_add _).symm
  · intro k h
    have he : ((cfg0.win 3).blk t).view.emb (ix2 k h) = ix2 k h := by
      funext a; apply Fin.ext
      match a with
      | ⟨0, _⟩ => show win0_3.index t (0 : Fin 2) * 128 + 1 * k.val = k.val; omega
      | ⟨1, _⟩ => show win0_3.index t (1 : Fin 2) * 512 + 1 * h.val = h.val; omega
    rw [iblk3_apply, he, V_lower]
    exact slice2_axis0_apply 128 _ slices_S256x512_S128x512_128_0 k h (Cert.NodeMlp.hi k) rfl
  · intro h
    rw [iblk4_apply]
    refine congrArg _ (funext fun a => Fin.ext ?_)
    match a with
    | ⟨0, _⟩ => show win0_4.index t (0 : Fin 1) * 512 + 1 * h.val = h.val; omega
  · intro h j
    rw [iblk5_apply]
    refine congrArg _ (funext fun a => Fin.ext ?_)
    match a with
    | ⟨0, _⟩ => show win0_5.index t (0 : Fin 2) * 512 + 1 * h.val = h.val; omega
    | ⟨1, _⟩ => show win0_5.index t (1 : Fin 2) * 128 + 1 * j.val = j.val; omega
  · intro j
    rw [iblk6_apply]
    refine congrArg _ (funext fun a => Fin.ext ?_)
    match a with
    | ⟨0, _⟩ => show win0_6.index t (0 : Fin 1) * 128 + 1 * j.val = j.val; omega

/-! ## The blocks tile the array -/

/-- An index of the result is in point t's block iff each coordinate is in the block's range on its axis. -/
theorem mem_blk (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v5).slice (win0_7.rect t)).set ↔ _
  rw [View.set_slice_whole, Rect.mem_set_unit]
  exact Iff.rfl

/-- Row r of the result is written by point r / 2000. -/
theorem cover (i : S50000x128.Idx) : ∃ t : Fin cfg0.N, (cfg0.win 7).flush t = true ∧ i ∈ ((cfg0.win 7).blk t).view.set := by
  have hi0 : (i 0).val < 50000 := idx2_lt0 i
  have hi1 : (i 1).val < 128 := idx2_lt1 i
  have hlt : (i 0).val / 2000 < cfg0.N := by
    show (i 0).val / 2000 < grid0.N
    rw [N_0]; omega
  obtain ⟨-, -, -, -, -, -, -, -, -, -, -, -, e70, e71⟩ := idx_facts ⟨(i 0).val / 2000, hlt⟩
  have e70' : win0_7.index ⟨(i 0).val / 2000, hlt⟩ (0 : Fin 2) = (i 0).val / 2000 := e70
  refine ⟨⟨(i 0).val / 2000, hlt⟩, flush0_7 _, ?_⟩
  rw [mem_blk]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    omega
  | ⟨1, _⟩ =>
    show win0_7.index ⟨(i 0).val / 2000, hlt⟩ (1 : Fin 2) * 128 ≤ (i 1).val
      ∧ (i 1).val < win0_7.index ⟨(i 0).val / 2000, hlt⟩ (1 : Fin 2) * 128 + 128
    omega

/-! ## The array after the run -/

/-- The node update of the kernel's arguments as launched. -/
abbrev result (c : Dev nD) : S50000x128.Idx → EReal :=
  Cert.NodeMlp.out (agg (m ((c : Thread nD τ).loc main_arg3)) (m ((c : Thread nD τ).loc main_arg1)))
    (m ((c : Thread nD τ).loc main_arg0)) (m ((c : Thread nD τ).loc main_arg4)) (m ((c : Thread nD τ).loc main_arg5))
    (m ((c : Thread nD τ).loc main_arg6)) (m ((c : Thread nD τ).loc main_arg7))

/-- THE RESULT ARRAY after the run is the node update of the arguments. -/
theorem final (c : Dev nD) : (dats m 0 c).arrAt 7 cfg0.N = result m c := by
  rw [(dats m 0 c).arrAt_eq_of_cover 7 _ (fun t _ => flushed_eq m c t) cover]
  unfold result
  rw [V_agg, V_main_arg0, V_main_arg5, V_main_arg6, V_main_arg7]

/-- The kernel's run: it ends with the result array at the node update and the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.NodeUpdate

end
-- ==== Proof.ReferenceNodeUpdate.lean ====
/-
  The reference computes the node update.

  The reference joins the aggregated edge features and the node features into rows of length 256, multiplies by the
  whole first weight matrix, adds the bias, rectifies, multiplies by the second weight matrix and adds the second bias.
  Column k < 128 of the joined row is the aggregated feature k and column 128 + k is the node feature k, so the sum over
  the 256 columns is the sum of the two half sums of the node update's hidden layer.
-/
import proofs.«117896_j3375844295136_1_alg».proof.Proof.Gen.ReferenceIdeal.Read
import proofs.«117896_j3375844295136_1_alg».proof.Proof.NodeMlpSpec
import Idealize.ShloMosaic.Lib.Pipeline.Value
import Idealize.ShloMosaic.PureOps.Ideal.Laws

noncomputable section

open scoped BigOperators

namespace Cert.ReferenceIdeal.NodeUpdate

open Cert.ReferenceIdeal Cert.ReferenceIdeal.Gen Cert.ReferenceIdeal.Read Idealize.ShloMosaic Idealize.ShloMosaic.ValueIdx

/-- The joined row at a column of its first half is the first operand there. -/
theorem joined_lo (a b : S50000x128.Idx → EReal) (r : Fin 50000) (k : Fin 128) :
    concatenate S50000x256 1 [⟨S50000x128, a⟩, ⟨S50000x128, b⟩] concatenates_S50000x128_S50000x128_S50000x256_d1
      (ix2 r (Cert.NodeMlp.lo k)) = a (ix2 r k) :=
  concatenate_pair_apply_left 1 a b concatenates_S50000x128_S50000x128_S50000x256_d1 (ix2 r (Cert.NodeMlp.lo k)) rfl (ix2 r k)
    (fun d => by
      match d with
      | ⟨0, _⟩ => rfl
      | ⟨1, _⟩ => rfl)

/-- The joined row at a column of its second half is the second operand at the column less 128. -/
theorem joined_hi (a b : S50000x128.Idx → EReal) (r : Fin 50000) (k : Fin 128) :
    concatenate S50000x256 1 [⟨S50000x128, a⟩, ⟨S50000x128, b⟩] concatenates_S50000x128_S50000x128_S50000x256_d1
      (ix2 r (Cert.NodeMlp.hi k)) = b (ix2 r k) :=
  concatenate_pair_apply_right 1 a b concatenates_S50000x128_S50000x128_S50000x256_d1 (ix2 r (Cert.NodeMlp.hi k)) rfl rfl (ix2 r k)
    (fun d hd => by
      match d with
      | ⟨0, _⟩ => rfl
      | ⟨1, _⟩ => exact absurd rfl hd)
    (by show k.val + 128 = 128 + k.val; omega)

/-- The reference's hidden layer before the rectifier is the node update's. -/
theorem hidden_eq (x0 : (⟨S50000x128, .f32⟩ : BufTy).Contents (Elt Ideal)) (x1 : (⟨S800000x128, .f32⟩ : BufTy).Contents (Elt Ideal))
    (x3 : (⟨S800000, .i32⟩ : BufTy).Contents (Elt Ideal)) (x4 : (⟨S256x512, .f32⟩ : BufTy).Contents (Elt Ideal))
    (x5 : (⟨S512, .f32⟩ : BufTy).Contents (Elt Ideal)) (r : Fin 50000) (h : Fin 512) :
    val_main_v7 (F := Ideal) x0 x1 x3 x4 x5 (ix2 r h) = Cert.NodeMlp.hid (val_main_v2 (F := Ideal) x1 x3) x0 x4 x5 r h := by
  rw [val_main_v7_apply, val_main_v4_apply, val_main_v6_apply, val_main_v5_apply]
  have el : ∀ k : Fin 256, lidx_main_v4 (ix2 r h) k = ix2 r k := fun k => funext fun a => by
    match a with
    | ⟨0, _⟩ => rfl
    | ⟨1, _⟩ => rfl
  have er : ∀ k : Fin 256, ridx_main_v4 (ix2 r h) k = ix2 k h := fun k => funext fun a => by
    match a with
    | ⟨0, _⟩ => rfl
    | ⟨1, _⟩ => rfl
  have eb : idx_main_v5 (idx_main_v6 (ix2 r h)) = ix1 h := funext fun a => by
    match a with
    | ⟨0, _⟩ => rfl
  simp only [el, er, eb]
  exact Cert.NodeMlp.hid_of_joined (val_main_v2 (F := Ideal) x1 x3) x0 x4 x5 (val_main_v3 (F := Ideal) x0 x1 x3) r h
    (fun k => joined_lo _ _ r k) (fun k => joined_hi _ _ r k)

/-- THE REFERENCE'S RESULT is the node update of the aggregated edge features, the node features and the weights. -/
theorem result_eq (x0 : (⟨S50000x128, .f32⟩ : BufTy).Contents (Elt Ideal)) (x1 : (⟨S800000x128, .f32⟩ : BufTy).Contents (Elt Ideal))
    (x3 : (⟨S800000, .i32⟩ : BufTy).Contents (Elt Ideal)) (x4 : (⟨S256x512, .f32⟩ : BufTy).Contents (Elt Ideal))
    (x5 : (⟨S512, .f32⟩ : BufTy).Contents (Elt Ideal)) (x6 : (⟨S512x128, .f32⟩ : BufTy).Contents (Elt Ideal))
    (x7 : (⟨S128, .f32⟩ : BufTy).Contents (Elt Ideal)) :
    val_main_v12 (F := Ideal) x0 x1 x3 x4 x5 x6 x7 = Cert.NodeMlp.out (val_main_v2 (F := Ideal) x1 x3) x0 x4 x5 x6 x7 := by
  funext i
  obtain ⟨r, j, rfl⟩ : ∃ (r : Fin 50000) (j : Fin 128), i = ix2 r j := ⟨i 0, i 1, eq_ix2 i⟩
  rw [val_main_v12_apply, val_main_v9_apply, val_main_v11_apply, val_main_v10_apply]
  unfold Cert.NodeMlp.out
  have eb : idx_main_v10 (idx_main_v11 (ix2 r j)) = ix1 j := funext fun a => by
    match a with
    | ⟨0, _⟩ => rfl
  rw [eb]
  refine congrArg₂ (· + ·) (Finset.sum_congr rfl fun h _ => ?_) rfl
  have e1 : lidx_main_v9 (ix2 r j) h = ix2 r h := funext fun a => by
    match a with
    | ⟨0, _⟩ => rfl
    | ⟨1, _⟩ => rfl
  have e2 : ridx_main_v9 (ix2 r j) h = ix2 h j := funext fun a => by
    match a with
    | ⟨0, _⟩ => rfl
    | ⟨1, _⟩ => rfl
  rw [e1, e2, val_main_v8_apply, hidden_eq, val_main_call0_v0_apply, val_main_call0_cst_apply]
  show max _ (Ideal.ofBits .f32 0x00000000#32) * _ = _
  rw [Ideal.ofBits_zero_f32]

end Cert.ReferenceIdeal.NodeUpdate

end
-- ==== Proof.lean ====
/-
  A message-passing node update: the kernel against its reference, over the extended reals.

  Both programs first add every edge's feature row into the row of its receiver node (the same scatter-add on both
  sides, kept as one unopened term). The reference then joins the aggregated rows and the node rows into rows of length
  256 and applies a two-layer perceptron, relu(x W1 + b1) W2 + b2. The kernel never forms the joined rows: it multiplies
  the aggregated rows by the first 128 rows of W1 and the node rows by the last 128 rows and adds the two products, 2000
  node rows per grid point, 25 grid points.

  The one law that joins them: a sum over the 256 columns of the joined row is the sum over its first 128 columns plus
  the sum over its last 128 columns. Sums of extended reals are commutative and associative whatever the summands, so
  the inputs' finiteness is never used. Changes of float format are the identity on extended reals, and a matrix product
  into the zero matrix is the plain sum of products.

  The modules: the node update as one function of the arrays and the half-sum law (NodeMlpSpec); one stored block of the
  kernel at an entry (KernelBlock); the 25 blocks laid into the result array (KernelNodeUpdate); the reference's
  operations read at an entry (ReferenceNodeUpdate); a plain matrix product at an entry (LibRealFactor).
-/
import proofs.«117896_j3375844295136_1_alg».proof.Defs
import proofs.«117896_j3375844295136_1_alg».proof.Proof.Gen.Kernel
import proofs.«117896_j3375844295136_1_alg».proof.Proof.Gen.Kernel.Skeleton
import proofs.«117896_j3375844295136_1_alg».proof.Proof.Gen.Kernel.Launch
import proofs.«117896_j3375844295136_1_alg».proof.Proof.Gen.Kernel.Points
import proofs.«117896_j3375844295136_1_alg».proof.Proof.Gen.Kernel.Frame
import proofs.«117896_j3375844295136_1_alg».proof.Proof.Gen.KernelIdeal
import proofs.«117896_j3375844295136_1_alg».proof.Proof.Gen.KernelIdeal.Skeleton
import proofs.«117896_j3375844295136_1_alg».proof.Proof.Gen.KernelIdeal.Launch
import proofs.«117896_j3375844295136_1_alg».proof.Proof.Gen.KernelIdeal.Points
import proofs.«117896_j3375844295136_1_alg».proof.Proof.Gen.KernelIdeal.Frame
import proofs.«117896_j3375844295136_1_alg».proof.Proof.Gen.ReferenceIdeal
import proofs.«117896_j3375844295136_1_alg».proof.Proof.Gen.Pre_finite_inputs
import proofs.«117896_j3375844295136_1_alg».proof.Proof.Gen.KernelIdeal.Value
import proofs.«117896_j3375844295136_1_alg».proof.Proof.Gen.ReferenceIdeal.Run
import proofs.«117896_j3375844295136_1_alg».proof.Proof.Gen.ReferenceIdeal.Read
import proofs.«117896_j3375844295136_1_alg».proof.Proof.KernelNodeUpdate
import proofs.«117896_j3375844295136_1_alg».proof.Proof.ReferenceNodeUpdate
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The aggregated edge features are one term on the two sides: the same scatter-add of the same arrays. -/
theorem agg_eq (x1 : (⟨Cert.ReferenceIdeal.S800000x128, .f32⟩ : BufTy).Contents (Elt Ideal))
    (x3 : (⟨Cert.ReferenceIdeal.S800000, .i32⟩ : BufTy).Contents (Elt Ideal)) :
    Cert.ReferenceIdeal.Read.val_main_v2 (F := Ideal) x1 x3 = Cert.KernelIdeal.NodeUpdate.agg x3 x1 := rfl

/-- From memories that agree on the arguments, the kernel's result array and the reference's both end at the node update
    of the arguments. -/
theorem algebraic : Cert.algebraic_KernelIdeal_ReferenceIdeal := by
  intro m ρ m' ρ' _ hagree
  refine ⟨fun c => Cert.KernelIdeal.NodeUpdate.result m c, Cert.KernelIdeal.NodeUpdate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.NodeUpdate.result_eq, agg_eq]
  obtain ⟨h0, h1, -, h3, h4, h5, h6, h7⟩ := hagree c
  rw [h0, h1, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
